-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S10000x128 : Shape := ⟨2, ![10000, 128]⟩
abbrev S900000x128 : Shape := ⟨2, ![900000, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S900000, .i32⟩
  | .hbm, ⟨32, _⟩ => ⟨S900000, .i1⟩
  | .hbm, ⟨33, _⟩ => ⟨S_, .i32⟩
  | .hbm, ⟨34, _⟩ => ⟨S900000, .i32⟩
  | .hbm, ⟨35, _⟩ => ⟨S900000, .i32⟩
  | .hbm, ⟨36, _⟩ => ⟨S900000, .i32⟩
  | .hbm, ⟨37, _⟩ => ⟨S900000x1, .i32⟩
  | .hbm, ⟨38, _⟩ => ⟨S900000, .f32⟩
  | .hbm, ⟨39, _⟩ => ⟨S_, .i32⟩
  | .hbm, ⟨40, _⟩ => ⟨S900000, .i32⟩
  | .hbm, ⟨41, _⟩ => ⟨S900000, .i1⟩
  | .hbm, ⟨42, _⟩ => ⟨S_, .i32⟩
  | .hbm, ⟨43, _⟩ => ⟨S900000, .i32⟩
  | .hbm, ⟨44, _⟩ => ⟨S900000, .i32⟩
  | .hbm, ⟨45, _⟩ => ⟨S900000, .i32⟩
  | .hbm, ⟨46, _⟩ => ⟨S900000x1, .i32⟩
  | .hbm, ⟨47, _⟩ => ⟨S900000, .f32⟩
  | .hbm, ⟨48, _⟩ => ⟨S900000, .f32⟩
  | .hbm, ⟨49, _⟩ => ⟨S100000x128, .f32⟩
  | .hbm, ⟨50, _⟩ => ⟨S_, .i32⟩
  | .hbm, ⟨51, _⟩ => ⟨S900000, .i32⟩
  | .hbm, ⟨52, _⟩ => ⟨S900000, .i1⟩
  | .hbm, ⟨53, _⟩ => ⟨S_, .i32⟩
  | .hbm, ⟨54, _⟩ => ⟨S900000, .i32⟩
  | .hbm, ⟨55, _⟩ => ⟨S900000, .i32⟩
  | .hbm, ⟨56, _⟩ => ⟨S900000, .i32⟩
  | .hbm, ⟨57, _⟩ => ⟨S900000x1, .i32⟩
  | .hbm, ⟨58, _⟩ => ⟨S900000x128, .f32⟩
  | .hbm, ⟨59, _⟩ => ⟨S900000x1, .f32⟩
  | .hbm, ⟨60, _⟩ => ⟨S900000x128, .f32⟩
  | .hbm, ⟨61, _⟩ => ⟨S900000x128, .f32⟩
  | .hbm, ⟨62, _⟩ => ⟨S_, .f32⟩
  | .hbm, ⟨63, _⟩ => ⟨S100000x128, .f32⟩
  | .hbm, ⟨64, _⟩ => ⟨S900000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S900000, .i32⟩
  | .hbm, ⟨71, _⟩ => ⟨S900000, .i1⟩
  | .hbm, ⟨72, _⟩ => ⟨S_, .i32⟩
  | .hbm, ⟨73, _⟩ => ⟨S900000, .i32⟩
  | .hbm, ⟨74, _⟩ => ⟨S900000, .i32⟩
  | .hbm, ⟨75, _⟩ => ⟨S900000, .i32⟩
  | .hbm, ⟨76, _⟩ => ⟨S900000x1, .i32⟩
  | .hbm, ⟨77, _⟩ => ⟨S900000x128, .f32⟩
  | .hbm, ⟨78, _⟩ => ⟨S900000x1, .f32⟩
  | .hbm, ⟨79, _⟩ => ⟨S900000x128, .f32⟩
  | .hbm, ⟨80, _⟩ => ⟨S900000x128, .f32⟩
  | .hbm, ⟨81, _⟩ => ⟨S_, .f32⟩
  | .hbm, ⟨82, _⟩ => ⟨S100000x128, .f32⟩
  | .hbm, ⟨83, _⟩ => ⟨S900000x1, .i32⟩
  | .hbm, ⟨84, _⟩ => ⟨S100000x128, .f32⟩
  | .hbm, ⟨85, _⟩ => ⟨S1x128, .f32⟩
  | .hbm, ⟨86, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x128_S128x128_S10000x128_1_0_0_1_n_n_wf : DotDims.WF S10000x128 S128x128 S10000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S900000, .i32⟩
  | .hbm, ⟨32, _⟩ => ⟨S900000, .i1⟩
  | .hbm, ⟨33, _⟩ => ⟨S_, .i32⟩
  | .hbm, ⟨34, _⟩ => ⟨S900000, .i32⟩
  | .hbm, ⟨35, _⟩ => ⟨S900000, .i32⟩
  | .hbm, ⟨36, _⟩ => ⟨S900000, .i32⟩
  | .hbm, ⟨37, _⟩ => ⟨S900000x1, .i32⟩
  | .hbm, ⟨38, _⟩ => ⟨S900000, .f32⟩
  | .hbm, ⟨39, _⟩ => ⟨S_, .i32⟩
  | .hbm, ⟨40, _⟩ => ⟨S900000, .i32⟩
  | .hbm, ⟨41, _⟩ => ⟨S900000, .i1⟩
  | .hbm, ⟨42, _⟩ => ⟨S_, .i32⟩
  | .hbm, ⟨43, _⟩ => ⟨S900000, .i32⟩
  | .hbm, ⟨44, _⟩ => ⟨S900000, .i32⟩
  | .hbm, ⟨45, _⟩ => ⟨S900000, .i32⟩
  | .hbm, ⟨46, _⟩ => ⟨S900000x1, .i32⟩
  | .hbm, ⟨47, _⟩ => ⟨S900000, .f32⟩
  | .hbm, ⟨48, _⟩ => ⟨S900000, .f32⟩
  | .hbm, ⟨49, _⟩ => ⟨S128x128, .f32⟩
  | .hbm, ⟨50, _⟩ => ⟨S100000x128, .f32⟩
  | .hbm, ⟨51, _⟩ => ⟨S_, .i32⟩
  | .hbm, ⟨52, _⟩ => ⟨S900000, .i32⟩
  | .hbm, ⟨53, _⟩ => ⟨S900000, .i1⟩
  | .hbm, ⟨54, _⟩ => ⟨S_, .i32⟩
  | .hbm, ⟨55, _⟩ => ⟨S900000, .i32⟩
  | .hbm, ⟨56, _⟩ => ⟨S900000, .i32⟩
  | .hbm, ⟨57, _⟩ => ⟨S900000, .i32⟩
  | .hbm, ⟨58, _⟩ => ⟨S900000x1, .i32⟩
  | .hbm, ⟨59, _⟩ => ⟨S900000x128, .f32⟩
  | .hbm, ⟨60, _⟩ => ⟨S900000x1, .f32⟩
  | .hbm, ⟨61, _⟩ => ⟨S900000x128, .f32⟩
  | .hbm, ⟨62, _⟩ => ⟨S900000x128, .f32⟩
  | .hbm, ⟨63, _⟩ => ⟨S_, .f32⟩
  | .hbm, ⟨64, _⟩ => ⟨S100000x128, .f32⟩
  | .hbm, ⟨65, _⟩ => ⟨S900000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S_, .i32⟩
  | .hbm, ⟨76, _⟩ => ⟨S900000, .i32⟩
  | .hbm, ⟨77, _⟩ => ⟨S900000, .i1⟩
  | .hbm, ⟨78, _⟩ => ⟨S_, .i32⟩
  | .hbm, ⟨79, _⟩ => ⟨S900000, .i32⟩
  | .hbm, ⟨80, _⟩ => ⟨S900000, .i32⟩
  | .hbm, ⟨81, _⟩ => ⟨S900000, .i32⟩
  | .hbm, ⟨82, _⟩ => ⟨S900000x1, .i32⟩
  | .hbm, ⟨83, _⟩ => ⟨S900000x128, .f32⟩
  | .hbm, ⟨84, _⟩ => ⟨S900000x1, .f32⟩
  | .hbm, ⟨85, _⟩ => ⟨S900000x128, .f32⟩
  | .hbm, ⟨86, _⟩ => ⟨S900000x128, .f32⟩
  | .hbm, ⟨87, _⟩ => ⟨S_, .f32⟩
  | .hbm, ⟨88, _⟩ => ⟨S100000x128, .f32⟩
  | .hbm, ⟨89, _⟩ => ⟨S900000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  transposes_S128x128_S128x128_1_0 : S128x128.Transposes [1, 0] S128x128
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

class Facts : Prop extends Facts₀ where

variable [Facts]
-- ==== Proof.Spec.lean ====
/-
  The two row-wise shapes of a graph-convolution layer on the extended reals: every row of the features against every
  row of the weight matrix (the layer's `x · Wᵀ`), and a one-row bias added to every row, with or without a clamp at zero.
-/
import Idealize.ShloMosaic.PureOps.Ideal
import Idealize.ShloMosaic.Lib.ValueIdx

noncomputable section

open scoped BigOperators

namespace Cert.Spec

open Idealize.ShloMosaic Idealize.ShloMosaic.ValueIdx

/-- Entry `(r, j)` is row `r` of `x` times row `j` of `w`, summed over the 128 features: `x · wᵀ`. -/
def rowsByRows {M : Nat} (x : FVec Ideal ⟨2, ![M, 128]⟩ .f32) (w : FVec Ideal ⟨2, ![128, 128]⟩ .f32) :
    FVec Ideal ⟨2, ![M, 128]⟩ .f32 :=
  fun i => ∑ k : Fin 128, x (ix2 (⟨(i 0).val, idx2_lt0 i⟩ : Fin M) k) * w (ix2 (⟨(i 1).val, idx2_lt1 i⟩ : Fin 128) k)

theorem rowsByRows_apply {M : Nat} (x : FVec Ideal ⟨2, ![M, 128]⟩ .f32) (w : FVec Ideal ⟨2, ![128, 128]⟩ .f32)
    (r : Fin M) (j : Fin 128) : rowsByRows x w (ix2 r j) = ∑ k : Fin 128, x (ix2 r k) * w (ix2 j k) := rfl

/-- The bias, held as one row, added to every row. -/
def addRow {M : Nat} (a : FVec Ideal ⟨2, ![M, 128]⟩ .f32) (b : FVec Ideal ⟨2, ![1, 128]⟩ .f32) :
    FVec Ideal ⟨2, ![M, 128]⟩ .f32 :=
  fun i => a i + b (ix2 (0 : Fin 1) (⟨(i 1).val, idx2_lt1 i⟩ : Fin 128))

theorem addRow_apply {M : Nat} (a : FVec Ideal ⟨2, ![M, 128]⟩ .f32) (b : FVec Ideal ⟨2, ![1, 128]⟩ .f32)
    (r : Fin M) (j : Fin 128) : addRow a b (ix2 r j) = a (ix2 r j) + b (ix2 (0 : Fin 1) j) := rfl

/-- The same, then clamped below at zero. -/
def addRowClamp {M : Nat} (a : FVec Ideal ⟨2, ![M, 128]⟩ .f32) (b : FVec Ideal ⟨2, ![1, 128]⟩ .f32) :
    FVec Ideal ⟨2, ![M, 128]⟩ .f32 :=
  fun i => max (a i + b (ix2 (0 : Fin 1) (⟨(i 1).val, idx2_lt1 i⟩ : Fin 128))) 0

theorem addRowClamp_apply {M : Nat} (a : FVec Ideal ⟨2, ![M, 128]⟩ .f32) (b : FVec Ideal ⟨2, ![1, 128]⟩ .f32)
    (r : Fin M) (j : Fin 128) : addRowClamp a b (ix2 r j) = max (a (ix2 r j) + b (ix2 (0 : Fin 1) j)) 0 := rfl

end Cert.Spec

end
-- ==== Proof.RefStages.lean ====
/-
  The reference's dense stages read as the layer's row-wise shapes: its product with the transposed weights is every row
  against every row of the weights; its bias, laid over all rows and added (then clamped at zero in the first layer), is
  the one-row bias added to every row.
-/
import proofs.«124354_j16827681865964_1_alg».proof.Proof.RefRead
import proofs.«124354_j16827681865964_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Cert.ReferenceIdeal.Gen Cert.ReferenceIdeal.ReadP Idealize.ShloMosaic Idealize.ShloMosaic.TcCoe
open Idealize.ShloMosaic.ValueIdx

/-- The product of `h` with the transposed weights: row `r` of `h` against row `j` of `w`. -/
theorem dot_rows (h : FVec Ideal S100000x128 .f32) (w : FVec Ideal S128x128 .f32) :
    Host.dotGeneral (F := Ideal) dot_S100000x128_S128x128_S100000x128_1_0_0_1_n_n none h
        (transpose S128x128 [1, 0] w transposes_S128x128_S128x128_1_0)
      = Cert.Spec.rowsByRows h w := by
  funext i
  obtain ⟨r, j, rfl⟩ : ∃ (r : Fin 100000) (j : Fin 128), i = ix2 r j := ⟨i 0, i 1, eq_ix2 i⟩
  -- the left side is the reference's product stage; the right side at `(r, j)` is the sum over the 128 features
  show val_main_v33 (F := Ideal) h w (ix2 r j) = ∑ k : Fin 128, h (ix2 r k) * w (ix2 j k)
  rw [val_main_v33_apply]
  refine Finset.sum_congr rfl fun k _ => ?_
  rw [val_main_v32_apply]
  -- the left operand is read at `(r, k)`; the transposed weights at `(k, j)`, that is the weights at `(j, k)`
  have el : lidx_main_v33 (ix2 r j) k = ix2 r k :=
    funext fun a => Fin.ext (by match a with | ⟨0, _⟩ => rfl | ⟨1, _⟩ => rfl)
  have er : idx_main_v32 (ridx_main_v33 (ix2 r j) k) = ix2 j k :=
    funext fun a => Fin.ext (by match a with | ⟨0, _⟩ => rfl | ⟨1, _⟩ => rfl)
  rw [el, er]

/-- The first layer's bias and clamp: the bias laid over all rows, added, the sum clamped below at zero. -/
theorem bias_clamp (a : FVec Ideal S100000x128 .f32) (x3 : FVec Ideal S128 .f32) (b : FVec Ideal S1x128 .f32)
    (hb : ∀ q : Fin 128, b (ix2 (0 : Fin 1) q) = x3 (ix1 q)) :
    maximumf (addf a (val_main_v48 (F := Ideal) x3)) (val_main_call1_v0 (F := Ideal)) = Cert.Spec.addRowClamp a b := by
  funext i
  obtain ⟨r, j, rfl⟩ : ∃ (r : Fin 100000) (j : Fin 128), i = ix2 r j := ⟨i 0, i 1, eq_ix2 i⟩
  show max (a (ix2 r j) + val_main_v48 (F := Ideal) x3 (ix2 r j)) (val_main_call1_v0 (F := Ideal) (ix2 r j))
    = max (a (ix2 r j) + b (ix2 (0 : Fin 1) j)) 0
  -- the bias laid over all rows reads the bias vector at the column; the clamp's constant is the zero word
  have e : idx_main_v47 (idx_main_v48 (ix2 r j)) = ix1 j :=
    funext fun c => Fin.ext (by match c with | ⟨0, _⟩ => rfl)
  have z : val_main_call1_v0 (F := Ideal) (ix2 r j) = (0 : Ideal .f32) := by
    rw [val_main_call1_v0_apply, val_main_call1_cst_apply]
    exact Ideal.ofBits_zero_f32
  rw [val_main_v48_apply, val_main_v47_apply, e, z, hb j]

/-- The second layer's bias: the bias laid over all rows and added. -/
theorem bias_plain (a : FVec Ideal S100000x128 .f32) (x5 : FVec Ideal S128 .f32) (b : FVec Ideal S1x128 .f32)
    (hb : ∀ q : Fin 128, b (ix2 (0 : Fin 1) q) = x5 (ix1 q)) :
    addf a (val_main_v67 (F := Ideal) x5) = Cert.Spec.addRow a b := by
  funext i
  obtain ⟨r, j, rfl⟩ : ∃ (r : Fin 100000) (j : Fin 128), i = ix2 r j := ⟨i 0, i 1, eq_ix2 i⟩
  show a (ix2 r j) + val_main_v67 (F := Ideal) x5 (ix2 r j) = a (ix2 r j) + b (ix2 (0 : Fin 1) j)
  -- the bias laid over all rows reads the bias vector at the column
  have e : idx_main_v66 (idx_main_v67 (ix2 r j)) = ix1 j :=
    funext fun c => Fin.ext (by match c with | ⟨0, _⟩ => rfl)
  rw [val_main_v67_apply, val_main_v66_apply, e, hb j]

end Cert.ReferenceIdeal.Stages

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KMat0.lean ====
/-
  The first layer's dense product: the region that multiplies the node features, ten thousand rows at a grid point, by the
  transposed first weight matrix leaves in its output array every row of the features against every row of the weights.
-/
import proofs.«124354_j16827681865964_1_alg».proof.Proof.Gen.KernelIdeal.Frame
import proofs.«124354_j16827681865964_1_alg».proof.Proof.Spec
import proofs.«124354_j16827681865964_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FirstProduct

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The block product at an entry -/

/-- The left operand of the block product is read at the entry's row … -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and at the summed feature; -/
theorem lhs_feat (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand at the summed feature … -/
theorem rhs_feat (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and at the entry's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores, at entry `(p, j)` of the block: row `p` of the feature block against row `j` of the weights
    (the weights enter transposed, and the narrowing of both operands is the identity on the extended reals). -/
theorem stored_entry (x0 : Vec Ideal S10000x128 .f32) (x1 : Vec Ideal S128x128 .f32) (p : Fin 10000) (j : Fin 128) :
    k0_pay1 (F := Ideal) x0 x1 (ix2 p j) = ∑ k : Fin 128, x0 (ix2 p k) * x1 (ix2 j k) := by
  unfold k0_pay1
  simp only [matmul]
  refine (Ideal.matmul_constant_zero_apply dot_S10000x128_S128x128_S10000x128_1_0_0_1_n_n none _ _ (ix2 p j)).trans ?_
  refine (Cert.LibPlainDot.sum_plain dot_S10000x128_S128x128_S10000x128_1_0_0_1_n_n rfl rfl lhs_row lhs_feat rhs_feat rhs_col _ _ p j).trans ?_
  refine Finset.sum_congr rfl fun k _ => ?_
  refine congrArg (x0 (ix2 p k) * ·) ?_
  refine (transpose_apply [1, 0] _ transposes_S128x128_p1_0_S128x128 (ix2 k j) (ix2 j k) (fun b => match b with
    | ⟨0, _⟩ => rfl
    | ⟨1, _⟩ => rfl)).trans ?_
  rfl

/-! ## From the blocks to the array -/

-- the contents of the buffers when the region is entered: a parameter of everything below
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the feature block and the output block move together down the
    rows, ten thousand rows a point; the weights are one block. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem block_onto : ∀ q0 : Fin 10, ∃ t : Fin cfg0.N, win0_2.index t = ![q0.val, 0] :=
  (by decide +kernel : ∀ q0 : Fin 10, ∃ t : Fin grid0.N, win0_2.index t = ![q0.val, 0])

/-- The block product over variables: if the feature block is rows `b·10000 …` of `X` and the weight block is `Wt`,
    the stored entry `(p, j)` is entry `(b·10000 + p, j)` of `X · Wtᵀ`. -/
theorem stored_is_product (x0 : Vec Ideal S10000x128 .f32) (x1 : Vec Ideal S128x128 .f32)
    (X : FVec Ideal S100000x128 .f32) (Wt : FVec Ideal S128x128 .f32) (b : Nat) (hb : b ≤ 9)
    (h0 : ∀ (p : Fin 10000) (k : Fin 128), x0 (ix2 p k) = X (ix2 (⟨b * 10000 + p.val, by have := p.isLt; omega⟩ : Fin 100000) k))
    (h1 : ∀ (j k : Fin 128), x1 (ix2 j k) = Wt (ix2 j k))
    (p : Fin 10000) (j : Fin 128) :
    k0_pay1 (F := Ideal) x0 x1 (ix2 p j)
      = Cert.Spec.rowsByRows X Wt (ix2 (⟨b * 10000 + p.val, by have := p.isLt; omega⟩ : Fin 100000) j) := by
  rw [stored_entry, Cert.Spec.rowsByRows_apply]
  exact Finset.sum_congr rfl fun k _ => by rw [h0 p k, h1 j k]

/-- What point `t` writes back is block `t` of `X · Wᵀ` of the arrays as the region finds them. -/
theorem flushed_eq (c : Dev nD) (t : Fin cfg0.N) :
    (dat0 V c).flushed 2 t
      = ((cfg0.win 2).blk t).view.read (Elt Ideal) (Cert.Spec.rowsByRows (V c main_arg0) (V c main_arg2)) := by
  show (cfg0.win 2).cut (grid0.coords t) ((dat0 V c).after 2 t) = _
  rw [after0_2]
  unfold out0_2
  rw [View.canon_unit_zero zero_offset]
  simp only [View.ld_unit_zero (S := S10000x128) zero_offset, View.ld_unit_zero (S := S128x128) zero_offset]
  obtain ⟨e0, e1, e2, e3, e4, e5⟩ := block_indices t
  funext y
  obtain ⟨p, j, rfl⟩ : ∃ (p : Fin 10000) (j : Fin 128), y = ix2 p j := ⟨y 0, y 1, eq_ix2 y⟩
  show k0_pay1 (F := Ideal) (iblk0 V c 0 t) (iblk0 V c 1 t) (ix2 p j)
    = Cert.Spec.rowsByRows (V c main_arg0) (V c main_arg2) (((cfg0.win 2).blk t).view.emb (ix2 p j))
  refine (stored_is_product (iblk0 V c 0 t) (iblk0 V c 1 t) (V c main_arg0) (V c main_arg2) (win0_2.index t (0 : Fin 2)) e5 ?_ ?_ p j).trans ?_
  · intro p' k
    show V c main_arg0 (((cfg0.win 0).blk t).view.emb (ix2 p' k)) = _
    refine congrArg (V c main_arg0) ?_
    funext a; apply Fin.ext
    match a with
    | ⟨0, _⟩ => show win0_0.index t (0 : Fin 2) * 10000 + 1 * p'.val = win0_2.index t (0 : Fin 2) * 10000 + p'.val; omega
    | ⟨1, _⟩ => show win0_0.index t (1 : Fin 2) * 128 + 1 * k.val = k.val; omega
  · intro j' k
    show V c main_arg2 (((cfg0.win 1).blk t).view.emb (ix2 j' k)) = _
    refine congrArg (V c main_arg2) ?_
    funext a; apply Fin.ext
    match a with
    | ⟨0, _⟩ => show win0_1.index t (0 : Fin 2) * 128 + 1 * j'.val = j'.val; omega
    | ⟨1, _⟩ => show win0_1.index t (1 : Fin 2) * 128 + 1 * k.val = k.val; omega
  · refine congrArg (Cert.Spec.rowsByRows (V c main_arg0) (V c main_arg2)) ?_
    funext a; apply Fin.ext
    match a with
    | ⟨0, _⟩ => show win0_2.index t (0 : Fin 2) * 10000 + p.val = win0_2.index t (0 : Fin 2) * 10000 + 1 * p.val; omega
    | ⟨1, _⟩ => show j.val = win0_2.index t (1 : Fin 2) * 128 + 1 * j.val; omega

/-- An index of the array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every row of the array lies in the block of the point numbered by the row's ten-thousand. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE ARRAY the region leaves: every row of the features against every row of the weights. -/
theorem final (c : Dev nD) :
    (dat0 V c).arrAt 2 cfg0.N = Cert.Spec.rowsByRows (V c main_arg0) (V c main_arg2) :=
  (dat0 V c).arrAt_eq_of_cover 2 _ (fun t _ => flushed_eq V c t) covered

end Cert.KernelIdeal.FirstProduct

end
-- ==== Proof.KBias1.lean ====
/-
  The first layer's bias and clamp: the region that adds the bias row to the aggregated messages, ten thousand rows at a grid
  point, and clamps the sum below at zero leaves in its output array the aggregated array with the row added to every row, clamped.
-/
import proofs.«124354_j16827681865964_1_alg».proof.Proof.Gen.KernelIdeal.Frame
import proofs.«124354_j16827681865964_1_alg».proof.Proof.Spec
import proofs.«124354_j16827681865964_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.FirstBias

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's store at an entry -/

/-- What the body stores, at entry `(p, j)` of the block: the block's entry plus the bias row's entry `j`, clamped below at zero
    (the two casts are between equal shapes, and the row is spread over the block's rows). -/
theorem stored_entry (x0 : Vec Ideal S10000x128 .f32) (x1 : Vec Ideal S1x128 .f32) (p : Fin 10000) (j : Fin 128) :
    k1_pay1 (F := Ideal) x0 x1 (ix2 p j) = max (x0 (ix2 p j) + x1 (ix2 (0 : Fin 1) j)) 0 := by
  unfold k1_pay1
  show max (shapeCast S10000x128 x0 shapeCasts_S10000x128_S10000x128 (ix2 p j)
        + broadcastTo S10000x128 (shapeCast S1x128 x1 shapeCasts_S1x128_S1x128) broadcasts_S1x128_S10000x128 (ix2 p j))
      (Scalar.ofBits (F := Ideal) .f32 0x00000000#32) = _
  rw [shapeCast_self, shapeCast_self, broadcastTo_1b_ab_apply, Cert.LibPlainDot.scalar_zero]

/-! ## From the blocks to the array -/

-- the contents of the buffers when the region is entered: a parameter of everything below
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the input block and the output block move together down the
    rows, ten thousand rows a point; the bias row is one block. -/
theorem block_indices : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks is some point's. -/
theorem block_onto : ∀ q0 : Fin 10, ∃ t : Fin cfg1.N, win1_2.index t = ![q0.val, 0] :=
  (by decide +kernel : ∀ q0 : Fin 10, ∃ t : Fin grid1.N, win1_2.index t = ![q0.val, 0])

/-- The store over variables: if the input block is rows `b·10000 …` of `A` and the bias block is the row `B`,
    the stored entry `(p, j)` is entry `(b·10000 + p, j)` of `A` with the row added and the clamp. -/
theorem stored_is_biased (x0 : Vec Ideal S10000x128 .f32) (x1 : Vec Ideal S1x128 .f32)
    (A : FVec Ideal S100000x128 .f32) (B : FVec Ideal S1x128 .f32) (b : Nat) (hb : b ≤ 9)
    (h0 : ∀ (p : Fin 10000) (k : Fin 128), x0 (ix2 p k) = A (ix2 (⟨b * 10000 + p.val, by have := p.isLt; omega⟩ : Fin 100000) k))
    (h1 : ∀ (k : Fin 128), x1 (ix2 (0 : Fin 1) k) = B (ix2 (0 : Fin 1) k))
    (p : Fin 10000) (j : Fin 128) :
    k1_pay1 (F := Ideal) x0 x1 (ix2 p j)
      = Cert.Spec.addRowClamp A B (ix2 (⟨b * 10000 + p.val, by have := p.isLt; omega⟩ : Fin 100000) j) := by
  rw [stored_entry, Cert.Spec.addRowClamp_apply, h0 p j, h1 j]

/-- What point `t` writes back is block `t` of the biased array of the arrays as the region finds them. -/
theorem flushed_eq (c : Dev nD) (t : Fin cfg1.N) :
    (dat1 V c).flushed 2 t
      = ((cfg1.win 2).blk t).view.read (Elt Ideal) (Cert.Spec.addRowClamp (V c main_v45) (V c main_v46)) := by
  show (cfg1.win 2).cut (grid1.coords t) ((dat1 V c).after 2 t) = _
  rw [after1_2]
  unfold out1_2
  rw [View.canon_unit_zero zero_offset]
  simp only [View.ld_unit_zero (S := S10000x128) zero_offset, View.ld_unit_zero (S := S1x128) zero_offset]
  obtain ⟨e0, e1, e2, e3, e4, e5⟩ := block_indices t
  funext y
  obtain ⟨p, j, rfl⟩ : ∃ (p : Fin 10000) (j : Fin 128), y = ix2 p j := ⟨y 0, y 1, eq_ix2 y⟩
  show k1_pay1 (F := Ideal) (iblk1 V c 0 t) (iblk1 V c 1 t) (ix2 p j)
    = Cert.Spec.addRowClamp (V c main_v45) (V c main_v46) (((cfg1.win 2).blk t).view.emb (ix2 p j))
  refine (stored_is_biased (iblk1 V c 0 t) (iblk1 V c 1 t) (V c main_v45) (V c main_v46) (win1_2.index t (0 : Fin 2)) e5 ?_ ?_ p j).trans ?_
  · intro p' k
    show V c main_v45 (((cfg1.win 0).blk t).view.emb (ix2 p' k)) = _
    refine congrArg (V c main_v45) ?_
    funext a; apply Fin.ext
    match a with
    | ⟨0, _⟩ => show win1_0.index t (0 : Fin 2) * 10000 + 1 * p'.val = win1_2.index t (0 : Fin 2) * 10000 + p'.val; omega
    | ⟨1, _⟩ => show win1_0.index t (1 : Fin 2) * 128 + 1 * k.val = k.val; omega
  · intro k
    show V c main_v46 (((cfg1.win 1).blk t).view.emb (ix2 (0 : Fin 1) k)) = _
    refine congrArg (V c main_v46) ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  · refine congrArg (Cert.Spec.addRowClamp (V c main_v45) (V c main_v46)) ?_
    funext a; apply Fin.ext
    match a with
    | ⟨0, _⟩ => show win1_2.index t (0 : Fin 2) * 10000 + p.val = win1_2.index t (0 : Fin 2) * 10000 + 1 * p.val; omega
    | ⟨1, _⟩ => show j.val = win1_2.index t (1 : Fin 2) * 128 + 1 * j.val; omega

/-- An index of the array is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Every row of the array lies in the block of the point numbered by the row's ten-thousand. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE ARRAY the region leaves: the input with the bias row added to every row, clamped below at zero. -/
theorem final (c : Dev nD) :
    (dat1 V c).arrAt 2 cfg1.N = Cert.Spec.addRowClamp (V c main_v45) (V c main_v46) :=
  (dat1 V c).arrAt_eq_of_cover 2 _ (fun t _ => flushed_eq V c t) covered

end Cert.KernelIdeal.FirstBias

end
-- ==== Proof.KMat2.lean ====
/-
  The second layer's dense product: the region that multiplies the first layer's output, ten thousand rows at a grid point, by the
  transposed second weight matrix leaves in its output array every row of the features against every row of the weights.
-/
import proofs.«124354_j16827681865964_1_alg».proof.Proof.Gen.KernelIdeal.Frame
import proofs.«124354_j16827681865964_1_alg».proof.Proof.Spec
import proofs.«124354_j16827681865964_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.SecondProduct

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The block product at an entry -/

/-- The left operand of the block product is read at the entry's row … -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and at the summed feature; -/
theorem lhs_feat (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand at the summed feature … -/
theorem rhs_feat (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and at the entry's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores, at entry `(p, j)` of the block: row `p` of the feature block against row `j` of the weights
    (the weights enter transposed, and the narrowing of both operands is the identity on the extended reals). -/
theorem stored_entry (x0 : Vec Ideal S10000x128 .f32) (x1 : Vec Ideal S128x128 .f32) (p : Fin 10000) (j : Fin 128) :
    k2_pay1 (F := Ideal) x0 x1 (ix2 p j) = ∑ k : Fin 128, x0 (ix2 p k) * x1 (ix2 j k) := by
  unfold k2_pay1
  simp only [matmul]
  rw [shapeCast_self]
  refine (Ideal.matmul_constant_zero_apply dot_S10000x128_S128x128_S10000x128_1_0_0_1_n_n none _ _ (ix2 p j)).trans ?_
  refine (Cert.LibPlainDot.sum_plain dot_S10000x128_S128x128_S10000x128_1_0_0_1_n_n rfl rfl lhs_row lhs_feat rhs_feat rhs_col _ _ p j).trans ?_
  refine Finset.sum_congr rfl fun k _ => ?_
  refine congrArg (x0 (ix2 p k) * ·) ?_
  refine (transpose_apply [1, 0] _ transposes_S128x128_p1_0_S128x128 (ix2 k j) (ix2 j k) (fun b => match b with
    | ⟨0, _⟩ => rfl
    | ⟨1, _⟩ => rfl)).trans ?_
  rfl

/-! ## From the blocks to the array -/

-- the contents of the buffers when the region is entered: a parameter of everything below
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the feature block and the output block move together down the
    rows, ten thousand rows a point; the weights are one block. -/
theorem block_indices : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some point's. -/
theorem block_onto : ∀ q0 : Fin 10, ∃ t : Fin cfg2.N, win2_2.index t = ![q0.val, 0] :=
  (by decide +kernel : ∀ q0 : Fin 10, ∃ t : Fin grid2.N, win2_2.index t = ![q0.val, 0])

/-- The block product over variables: if the feature block is rows `b·10000 …` of `X` and the weight block is `Wt`,
    the stored entry `(p, j)` is entry `(b·10000 + p, j)` of `X · Wtᵀ`. -/
theorem stored_is_product (x0 : Vec Ideal S10000x128 .f32) (x1 : Vec Ideal S128x128 .f32)
    (X : FVec Ideal S100000x128 .f32) (Wt : FVec Ideal S128x128 .f32) (b : Nat) (hb : b ≤ 9)
    (h0 : ∀ (p : Fin 10000) (k : Fin 128), x0 (ix2 p k) = X (ix2 (⟨b * 10000 + p.val, by have := p.isLt; omega⟩ : Fin 100000) k))
    (h1 : ∀ (j k : Fin 128), x1 (ix2 j k) = Wt (ix2 j k))
    (p : Fin 10000) (j : Fin 128) :
    k2_pay1 (F := Ideal) x0 x1 (ix2 p j)
      = Cert.Spec.rowsByRows X Wt (ix2 (⟨b * 10000 + p.val, by have := p.isLt; omega⟩ : Fin 100000) j) := by
  rw [stored_entry, Cert.Spec.rowsByRows_apply]
  exact Finset.sum_congr rfl fun k _ => by rw [h0 p k, h1 j k]

/-- What point `t` writes back is block `t` of `X · Wᵀ` of the arrays as the region finds them. -/
theorem flushed_eq (c : Dev nD) (t : Fin cfg2.N) :
    (dat2 V c).flushed 2 t
      = ((cfg2.win 2).blk t).view.read (Elt Ideal) (Cert.Spec.rowsByRows (V c main_v47) (V c main_arg4)) := by
  show (cfg2.win 2).cut (grid2.coords t) ((dat2 V c).after 2 t) = _
  rw [after2_2]
  unfold out2_2
  rw [View.canon_unit_zero zero_offset]
  simp only [View.ld_unit_zero (S := S10000x128) zero_offset, View.ld_unit_zero (S := S128x128) zero_offset]
  obtain ⟨e0, e1, e2, e3, e4, e5⟩ := block_indices t
  funext y
  obtain ⟨p, j, rfl⟩ : ∃ (p : Fin 10000) (j : Fin 128), y = ix2 p j := ⟨y 0, y 1, eq_ix2 y⟩
  show k2_pay1 (F := Ideal) (iblk2 V c 0 t) (iblk2 V c 1 t) (ix2 p j)
    = Cert.Spec.rowsByRows (V c main_v47) (V c main_arg4) (((cfg2.win 2).blk t).view.emb (ix2 p j))
  refine (stored_is_product (iblk2 V c 0 t) (iblk2 V c 1 t) (V c main_v47) (V c main_arg4) (win2_2.index t (0 : Fin 2)) e5 ?_ ?_ p j).trans ?_
  · intro p' k
    show V c main_v47 (((cfg2.win 0).blk t).view.emb (ix2 p' k)) = _
    refine congrArg (V c main_v47) ?_
    funext a; apply Fin.ext
    match a with
    | ⟨0, _⟩ => show win2_0.index t (0 : Fin 2) * 10000 + 1 * p'.val = win2_2.index t (0 : Fin 2) * 10000 + p'.val; omega
    | ⟨1, _⟩ => show win2_0.index t (1 : Fin 2) * 128 + 1 * k.val = k.val; omega
  · intro j' k
    show V c main_arg4 (((cfg2.win 1).blk t).view.emb (ix2 j' k)) = _
    refine congrArg (V c main_arg4) ?_
    funext a; apply Fin.ext
    match a with
    | ⟨0, _⟩ => show win2_1.index t (0 : Fin 2) * 128 + 1 * j'.val = j'.val; omega
    | ⟨1, _⟩ => show win2_1.index t (1 : Fin 2) * 128 + 1 * k.val = k.val; omega
  · refine congrArg (Cert.Spec.rowsByRows (V c main_v47) (V c main_arg4)) ?_
    funext a; apply Fin.ext
    match a with
    | ⟨0, _⟩ => show win2_2.index t (0 : Fin 2) * 10000 + p.val = win2_2.index t (0 : Fin 2) * 10000 + 1 * p.val; omega
    | ⟨1, _⟩ => show j.val = win2_2.index t (1 : Fin 2) * 128 + 1 * j.val; omega

/-- An index of the array is in point `t`'s block iff each coordinate is in the block's range on its axis. -/
theorem mem_block (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- Every row of the array lies in the block of the point numbered by the row's ten-thousand. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := block_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- THE ARRAY the region leaves: every row of the features against every row of the weights. -/
theorem final (c : Dev nD) :
    (dat2 V c).arrAt 2 cfg2.N = Cert.Spec.rowsByRows (V c main_v47) (V c main_arg4) :=
  (dat2 V c).arrAt_eq_of_cover 2 _ (fun t _ => flushed_eq V c t) covered

end Cert.KernelIdeal.SecondProduct

end
-- ==== Proof.KBias3.lean ====
/-
  The second layer's bias: the region that adds the bias row to the aggregated messages, ten thousand rows at a grid point,
  leaves in its output array the aggregated array with the row added to every row.
-/
import proofs.«124354_j16827681865964_1_alg».proof.Proof.Gen.KernelIdeal.Frame
import proofs.«124354_j16827681865964_1_alg».proof.Proof.Spec
import proofs.«124354_j16827681865964_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.SecondBias

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's store at an entry -/

/-- What the body stores, at entry `(p, j)` of the block: the block's entry plus the bias row's entry `j`
    (the two casts are between equal shapes, and the row is spread over the block's rows). -/
theorem stored_entry (x0 : Vec Ideal S10000x128 .f32) (x1 : Vec Ideal S1x128 .f32) (p : Fin 10000) (j : Fin 128) :
    k3_pay1 (F := Ideal) x0 x1 (ix2 p j) = x0 (ix2 p j) + x1 (ix2 (0 : Fin 1) j) := by
  unfold k3_pay1
  show shapeCast S10000x128 x0 shapeCasts_S10000x128_S10000x128 (ix2 p j)
        + broadcastTo S10000x128 (shapeCast S1x128 x1 shapeCasts_S1x128_S1x128) broadcasts_S1x128_S10000x128 (ix2 p j) = _
  rw [shapeCast_self, shapeCast_self, broadcastTo_1b_ab_apply]

/-! ## From the blocks to the array -/

-- the contents of the buffers when the region is entered: a parameter of everything below
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the ten grid points: the input block and the output block move together down the
    rows, ten thousand rows a point; the bias row is one block. -/
theorem block_indices : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row blocks is some point's. -/
theorem block_onto : ∀ q0 : Fin 10, ∃ t : Fin cfg3.N, win3_2.index t = ![q0.val, 0] :=
  (by decide +kernel : ∀ q0 : Fin 10, ∃ t : Fin grid3.N, win3_2.index t = ![q0.val, 0])

/-- The store over variables: if the input block is rows `b·10000 …` of `A` and the bias block is the row `B`,
    the stored entry `(p, j)` is entry `(b·10000 + p, j)` of `A` with the row added. -/
theorem stored_is_biased (x0 : Vec Ideal S10000x128 .f32) (x1 : Vec Ideal S1x128 .f32)
    (A : FVec Ideal S100000x128 .f32) (B : FVec Ideal S1x128 .f32) (b : Nat) (hb : b ≤ 9)
    (h0 : ∀ (p : Fin 10000) (k : Fin 128), x0 (ix2 p k) = A (ix2 (⟨b * 10000 + p.val, by have := p.isLt; omega⟩ : Fin 100000) k))
    (h1 : ∀ (k : Fin 128), x1 (ix2 (0 : Fin 1) k) = B (ix2 (0 : Fin 1) k))
    (p : Fin 10000) (j : Fin 128) :
    k3_pay1 (F := Ideal) x0 x1 (ix2 p j)
      = Cert.Spec.addRow A B (ix2 (⟨b * 10000 + p.val, by have := p.isLt; omega⟩ : Fin 100000) j) := by
  rw [stored_entry, Cert.Spec.addRow_apply, h0 p j, h1 j]

/-- What point `t` writes back is block `t` of the biased array of the arrays as the region finds them. -/
theorem flushed_eq (c : Dev nD) (t : Fin cfg3.N) :
    (dat3 V c).flushed 2 t
      = ((cfg3.win 2).blk t).view.read (Elt Ideal) (Cert.Spec.addRow (V c main_v61) (V c main_v62)) := by
  show (cfg3.win 2).cut (grid3.coords t) ((dat3 V c).after 2 t) = _
  rw [after3_2]
  unfold out3_2
  rw [View.canon_unit_zero zero_offset]
  simp only [View.ld_unit_zero (S := S10000x128) zero_offset, View.ld_unit_zero (S := S1x128) zero_offset]
  obtain ⟨e0, e1, e2, e3, e4, e5⟩ := block_indices t
  funext y
  obtain ⟨p, j, rfl⟩ : ∃ (p : Fin 10000) (j : Fin 128), y = ix2 p j := ⟨y 0, y 1, eq_ix2 y⟩
  show k3_pay1 (F := Ideal) (iblk3 V c 0 t) (iblk3 V c 1 t) (ix2 p j)
    = Cert.Spec.addRow (V c main_v61) (V c main_v62) (((cfg3.win 2).blk t).view.emb (ix2 p j))
  refine (stored_is_biased (iblk3 V c 0 t) (iblk3 V c 1 t) (V c main_v61) (V c main_v62) (win3_2.index t (0 : Fin 2)) e5 ?_ ?_ p j).trans ?_
  · intro p' k
    show V c main_v61 (((cfg3.win 0).blk t).view.emb (ix2 p' k)) = _
    refine congrArg (V c main_v61) ?_
    funext a; apply Fin.ext
    match a with
    | ⟨0, _⟩ => show win3_0.index t (0 : Fin 2) * 10000 + 1 * p'.val = win3_2.index t (0 : Fin 2) * 10000 + p'.val; omega
    | ⟨1, _⟩ => show win3_0.index t (1 : Fin 2) * 128 + 1 * k.val = k.val; omega
  · intro k
    show V c main_v62 (((cfg3.win 1).blk t).view.emb (ix2 (0 : Fin 1) k)) = _
    refine congrArg (V c main_v62) ?_
    funext a; apply Fin.ext
    match a with
    | ⟨0, _⟩ => show win3_1.index t (0 : Fin 2) * 1 + 1 * 0 = 0; omega
    | ⟨1, _⟩ => show win3_1.index t (1 : Fin 2) * 128 + 1 * k.val = k.val; omega
  · refine congrArg (Cert.Spec.addRow (V c main_v61) (V c main_v62)) ?_
    funext a; apply Fin.ext
    match a with
    | ⟨0, _⟩ => show win3_2.index t (0 : Fin 2) * 10000 + p.val = win3_2.index t (0 : Fin 2) * 10000 + 1 * p.val; omega
    | ⟨1, _⟩ => show j.val = win3_2.index t (1 : Fin 2) * 128 + 1 * j.val; omega

/-- An index of the array is in point `t`'s block iff each coordinate is in the block's range on its axis. -/
theorem mem_block (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v63).slice (win3_2.rect t)).set ↔ _
  rw [View.set_slice_whole, Rect.mem_set_unit]
  exact Iff.rfl

/-- Every row of the array lies in the block of the point numbered by the row's ten-thousand. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := block_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- THE ARRAY the region leaves: the input with the bias row added to every row. -/
theorem final (c : Dev nD) :
    (dat3 V c).arrAt 2 cfg3.N = Cert.Spec.addRow (V c main_v61) (V c main_v62) :=
  (dat3 V c).arrAt_eq_of_cover 2 _ (fun t _ => flushed_eq V c t) covered

end Cert.KernelIdeal.SecondBias

end
-- ==== Proof.KValue.lean ====
/-
  The kernel program's result as a function of its arguments. Between the regions the program runs the reference's own
  host operations (the source and target lists with the self loops appended, the degrees and the symmetric normalisation,
  the gather of the transformed rows, their scaling and the scatter-add onto the targets), so each buffer a later stage
  reads is walked back to the reference's stage of the same content; each region's output array is the row-wise function
  its blocks restrict; and the four regions and the host stretches between them compose to the reference's last stage.
-/
import proofs.«124354_j16827681865964_1_alg».proof.Proof.Gen.KernelIdeal.Frame
import proofs.«124354_j16827681865964_1_alg».proof.Proof.RefRead
import proofs.«124354_j16827681865964_1_alg».proof.Proof.RefStages
import proofs.«124354_j16827681865964_1_alg».proof.Proof.KMat0
import proofs.«124354_j16827681865964_1_alg».proof.Proof.KBias1
import proofs.«124354_j16827681865964_1_alg».proof.Proof.KMat2
import proofs.«124354_j16827681865964_1_alg».proof.Proof.KBias3
import Idealize.ShloMosaic.Lib.StableHlo.Run
import Idealize.ShloMosaic.Lib.ValueLayout

set_option maxRecDepth 16384

noncomputable section

namespace Cert.KernelIdeal.Composed

open Cert.KernelIdeal Cert.KernelIdeal.Gen Idealize.ShloMosaic Idealize.ShloMosaic.TcCoe Idealize.ShloMosaic.ValueIdx Idealize.SL.Sem
open Idealize.ShloMosaic.StableHlo
open Cert.ReferenceIdeal.ReadP

/-! ## The reference's two aggregation steps, over the transformed rows as a parameter -/

section Generic

variable {F : FTy → Type} [FloatOps F]

/-- The first layer's aggregation of transformed rows `h`: gather the source rows, scale each by its edge's
    normalisation, add onto the target rows (the reference's stages of the edge list `e`). -/
def aggregate₁ (e : (⟨Cert.ReferenceIdeal.S2x800000, .i32⟩ : BufTy).Contents (Elt F))
    (h : (⟨Cert.ReferenceIdeal.S100000x128, .f32⟩ : BufTy).Contents (Elt F)) :
    (⟨Cert.ReferenceIdeal.S100000x128, .f32⟩ : BufTy).Contents (Elt F) :=
  Host.scatterAdd Cert.ReferenceIdeal.scatter_S100000x128_S900000x1_S900000x128_1_0_0_1 (val_main_v44 (F := F)) (val_main_v45 (F := F) e)
    (mulf (Host.gather Cert.ReferenceIdeal.gather_S100000x128_S900000x1_S900000x128_1_0_n_n_0_1_1128 h (val_main_v39 (F := F) e)) (val_main_v42 (F := F) e))

/-- The second layer's: the same steps at the reference's later stages. -/
def aggregate₂ (e : (⟨Cert.ReferenceIdeal.S2x800000, .i32⟩ : BufTy).Contents (Elt F))
    (h : (⟨Cert.ReferenceIdeal.S100000x128, .f32⟩ : BufTy).Contents (Elt F)) :
    (⟨Cert.ReferenceIdeal.S100000x128, .f32⟩ : BufTy).Contents (Elt F) :=
  Host.scatterAdd Cert.ReferenceIdeal.scatter_S100000x128_S900000x1_S900000x128_1_0_0_1 (val_main_v63 (F := F)) (val_main_v64 (F := F) e)
    (mulf (Host.gather Cert.ReferenceIdeal.gather_S100000x128_S900000x1_S900000x128_1_0_n_n_0_1_1128 h (val_main_v58 (F := F) e)) (val_main_v61 (F := F) e))

theorem stage46_eq (x0 e x2) : val_main_v46 (F := F) x0 e x2 = aggregate₁ e (val_main_v33 (F := F) x0 x2) := rfl
theorem stage65_eq (x0 e x2 x3 x4) : val_main_v65 (F := F) x0 e x2 x3 x4 = aggregate₂ e (val_main_v52 (F := F) x0 e x2 x3 x4) := rfl

variable (m : (ℓ : Loc nD τ sig) → Buf (Elt F) ℓ) (ρ : Dev nD → PrngReg)

/-! ## Before the first region: the edge lists, the normalisation, the untouched arguments -/

/-- The sources with the self loops appended. -/
theorem pre_src (c : Dev nD) : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp <;> rfl

/-- The targets with the self loops appended. -/
theorem pre_dst (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results_simp <;> rfl

/-- The edges' normalisation: the inverse square roots of the two end points' degrees, multiplied. -/
theorem pre_norm (c : Dev nD) : W3 m ρ c (Proc.devRef .tc main_v31) = val_main_v31 (F := F) (m ((c : Thread nD τ).loc main_arg1)) := by
  show StableHlo.after hostOps0_2 (StableHlo.after hostOps0_1 (StableHlo.after hostOps0 (W0 m ρ c))) (Proc.devRef .tc main_v31) = _
  after_results_simp <;> rfl

/-- The node features are as launched. -/
theorem pre_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

/-- The first weights are as launched. -/
theorem pre_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl

/-- The first bias is as launched. -/
theorem pre_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

/-- The second weights are as launched. -/
theorem pre_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

/-- The second bias is as launched. -/
theorem pre_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-! ## Across the first region (it writes only its output array) -/

theorem at4_src (c : Dev nD) : W4 m ρ c (Proc.devRef .tc main_v3) = val_main_v3 (F := F) (m ((c : Thread nD τ).loc main_arg1)) :=
  (W4_of_ne m ρ c main_v3 (by decide)).trans (pre_src m ρ c)
theorem at4_dst (c : Dev nD) : W4 m ρ c (Proc.devRef .tc main_v6) = val_main_v6 (F := F) (m ((c : Thread nD τ).loc main_arg1)) :=
  (W4_of_ne m ρ c main_v6 (by decide)).trans (pre_dst m ρ c)
theorem at4_norm (c : Dev nD) : W4 m ρ c (Proc.devRef .tc main_v31) = val_main_v31 (F := F) (m ((c : Thread nD τ).loc main_arg1)) :=
  (W4_of_ne m ρ c main_v31 (by decide)).trans (pre_norm m ρ c)
theorem at4_arg3 (c : Dev nD) : W4 m ρ c (Proc.devRef .tc main_arg3) = (m ((c : Thread nD τ).loc main_arg3)) :=
  (W4_of_ne m ρ c main_arg3 (by decide)).trans (pre_arg3 m ρ c)
theorem at4_arg4 (c : Dev nD) : W4 m ρ c (Proc.devRef .tc main_arg4) = (m ((c : Thread nD τ).loc main_arg4)) :=
  (W4_of_ne m ρ c main_arg4 (by decide)).trans (pre_arg4 m ρ c)
theorem at4_arg5 (c : Dev nD) : W4 m ρ c (Proc.devRef .tc main_arg5) = (m ((c : Thread nD τ).loc main_arg5)) :=
  (W4_of_ne m ρ c main_arg5 (by decide)).trans (pre_arg5 m ρ c)

/-! ## The host stretch between the first two regions: the first aggregation and the bias as one row -/

/-- The first aggregation, of whatever the first region left. -/
theorem mid_agg (c : Dev nD) :
    W5 m ρ c (Proc.devRef .tc main_v45) = aggregate₁ (m ((c : Thread nD τ).loc main_arg1)) (W4 m ρ c (Proc.devRef .tc main_v32)) := by
  show StableHlo.after hostOps1 (W4 m ρ c) (Proc.devRef .tc main_v45) = _
  after_results_simp
  rw [at4_src m ρ c, at4_dst m ρ c, at4_norm m ρ c]
  rfl

/-- The first bias as one row. -/
theorem mid_bias (c : Dev nD) :
    W5 m ρ c (Proc.devRef .tc main_v46) = shapeCast S1x128 (m ((c : Thread nD τ).loc main_arg3)) shapeCasts_S128_S1x128 := by
  show StableHlo.after hostOps1 (W4 m ρ c) (Proc.devRef .tc main_v46) = _
  after_results_simp
  rw [at4_arg3 m ρ c]
  rfl

theorem keep5_src (c : Dev nD) : W5 m ρ c (Proc.devRef .tc main_v3) = W4 m ρ c (Proc.devRef .tc main_v3) := by
  show StableHlo.after hostOps1 (W4 m ρ c) (Proc.devRef .tc main_v3) = _
  after_results_simp <;> rfl
theorem keep5_dst (c : Dev nD) : W5 m ρ c (Proc.devRef .tc main_v6) = W4 m ρ c (Proc.devRef .tc main_v6) := by
  show StableHlo.after hostOps1 (W4 m ρ c) (Proc.devRef .tc main_v6) = _
  after_results_simp <;> rfl
theorem keep5_norm (c : Dev nD) : W5 m ρ c (Proc.devRef .tc main_v31) = W4 m ρ c (Proc.devRef .tc main_v31) := by
  show StableHlo.after hostOps1 (W4 m ρ c) (Proc.devRef .tc main_v31) = _
  after_results_simp <;> rfl
theorem keep5_arg4 (c : Dev nD) : W5 m ρ c (Proc.devRef .tc main_arg4) = W4 m ρ c (Proc.devRef .tc main_arg4) := by
  show StableHlo.after hostOps1 (W4 m ρ c) (Proc.devRef .tc main_arg4) = _
  after_results_simp <;> rfl
theorem keep5_arg5 (c : Dev nD) : W5 m ρ c (Proc.devRef .tc main_arg5) = W4 m ρ c (Proc.devRef .tc main_arg5) := by
  show StableHlo.after hostOps1 (W4 m ρ c) (Proc.devRef .tc main_arg5) = _
  after_results_simp <;> rfl

/-! ## Across the second and third regions -/

theorem at6_arg4 (c : Dev nD) : W6 m ρ c (Proc.devRef .tc main_arg4) = (m ((c : Thread nD τ).loc main_arg4)) :=
  (W6_of_ne m ρ c main_arg4 (by decide)).trans ((keep5_arg4 m ρ c).trans (at4_arg4 m ρ c))
theorem at7_src (c : Dev nD) : W7 m ρ c (Proc.devRef .tc main_v3) = val_main_v3 (F := F) (m ((c : Thread nD τ).loc main_arg1)) :=
  (W7_of_ne m ρ c main_v3 (by decide)).trans ((W6_of_ne m ρ c main_v3 (by decide)).trans ((keep5_src m ρ c).trans (at4_src m ρ c)))
theorem at7_dst (c : Dev nD) : W7 m ρ c (Proc.devRef .tc main_v6) = val_main_v6 (F := F) (m ((c : Thread nD τ).loc main_arg1)) :=
  (W7_of_ne m ρ c main_v6 (by decide)).trans ((W6_of_ne m ρ c main_v6 (by decide)).trans ((keep5_dst m ρ c).trans (at4_dst m ρ c)))
theorem at7_norm (c : Dev nD) : W7 m ρ c (Proc.devRef .tc main_v31) = val_main_v31 (F := F) (m ((c : Thread nD τ).loc main_arg1)) :=
  (W7_of_ne m ρ c main_v31 (by decide)).trans ((W6_of_ne m ρ c main_v31 (by decide)).trans ((keep5_norm m ρ c).trans (at4_norm m ρ c)))
theorem at7_arg5 (c : Dev nD) : W7 m ρ c (Proc.devRef .tc main_arg5) = (m ((c : Thread nD τ).loc main_arg5)) :=
  (W7_of_ne m ρ c main_arg5 (by decide)).trans ((W6_of_ne m ρ c main_arg5 (by decide)).trans ((keep5_arg5 m ρ c).trans (at4_arg5 m ρ c)))

/-! ## The host stretch before the last region: the second aggregation and the bias as one row -/

/-- The second aggregation, of whatever the third region left. -/
theorem late_agg (c : Dev nD) :
    W8 m ρ c (Proc.devRef .tc main_v61) = aggregate₂ (m ((c : Thread nD τ).loc main_arg1)) (W7 m ρ c (Proc.devRef .tc main_v48)) := by
  show StableHlo.after hostOps3 (W7 m ρ c) (Proc.devRef .tc main_v61) = _
  after_results_simp
  rw [at7_src m ρ c, at7_dst m ρ c, at7_norm m ρ c]
  rfl

/-- The second bias as one row. -/
theorem late_bias (c : Dev nD) :
    W8 m ρ c (Proc.devRef .tc main_v62) = shapeCast S1x128 (m ((c : Thread nD τ).loc main_arg5)) shapeCasts_S128_S1x128 := by
  show StableHlo.after hostOps3 (W7 m ρ c) (Proc.devRef .tc main_v62) = _
  after_results_simp
  rw [at7_arg5 m ρ c]
  rfl

end Generic

/-! ## On the extended reals: the regions' arrays, and the composition -/

section AtIdeal

variable (m : (ℓ : Loc nD τ sig) → Buf (Elt Ideal) ℓ) (ρ : Dev nD → PrngReg)

/-- After the first region its output array is the reference's first product. -/
theorem at4_product (c : Dev nD) :
    W4 m ρ c (Proc.devRef .tc main_v32) = val_main_v33 (F := Ideal) (m ((c : Thread nD τ).loc main_arg0)) (m ((c : Thread nD τ).loc main_arg2)) := by
  refine (W4_arr m ρ c 2).trans ?_
  refine (Cert.KernelIdeal.FirstProduct.final (V3 m ρ) c).trans ?_
  have h0 : V3 m ρ c main_arg0 = (m ((c : Thread nD τ).loc main_arg0)) := pre_arg0 m ρ c
  have h2 : V3 m ρ c main_arg2 = (m ((c : Thread nD τ).loc main_arg2)) := pre_arg2 m ρ c
  rw [h0, h2]
  exact (Cert.ReferenceIdeal.Stages.dot_rows _ _).symm

/-- The first aggregation is the reference's. -/
theorem at5_agg (c : Dev nD) :
    W5 m ρ c (Proc.devRef .tc main_v45) = val_main_v46 (F := Ideal) (m ((c : Thread nD τ).loc main_arg0)) (m ((c : Thread nD τ).loc main_arg1)) (m ((c : Thread nD τ).loc main_arg2)) := by
  rw [mid_agg m ρ c, at4_product m ρ c]
  exact (stage46_eq _ _ _).symm

/-- After the second region its output array is the reference's first layer: bias added, clamped at zero. -/
theorem at6_hidden (c : Dev nD) :
    W6 m ρ c (Proc.devRef .tc main_v47) = val_main_v50 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Cert.KernelIdeal.FirstBias.final (V5 m ρ) c).trans ?_
  have ha : V5 m ρ c main_v45 = val_main_v46 (F := Ideal) (m ((c : Thread nD τ).loc main_arg0)) (m ((c : Thread nD τ).loc main_arg1)) (m ((c : Thread nD τ).loc main_arg2)) := at5_agg m ρ c
  have hb : V5 m ρ c main_v46 = shapeCast S1x128 (m ((c : Thread nD τ).loc main_arg3)) shapeCasts_S128_S1x128 := mid_bias m ρ c
  rw [ha, hb]
  exact (Cert.ReferenceIdeal.Stages.bias_clamp _ (m ((c : Thread nD τ).loc main_arg3)) _ (fun q => shapeCast_a_1a_apply _ _ (0 : Fin 1) q)).symm

/-- After the third region its output array is the reference's second product. -/
theorem at7_product (c : Dev nD) :
    W7 m ρ c (Proc.devRef .tc main_v48) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Cert.KernelIdeal.SecondProduct.final (V6 m ρ) c).trans ?_
  have ha : V6 m ρ c main_v47 = val_main_v50 (F := Ideal) (m ((c : Thread nD τ).loc main_arg0)) (m ((c : Thread nD τ).loc main_arg1)) (m ((c : Thread nD τ).loc main_arg2)) (m ((c : Thread nD τ).loc main_arg3)) := at6_hidden m ρ c
  have hw : V6 m ρ c main_arg4 = (m ((c : Thread nD τ).loc main_arg4)) := at6_arg4 m ρ c
  rw [ha, hw]
  exact (Cert.ReferenceIdeal.Stages.dot_rows _ _).symm

/-- The second aggregation is the reference's. -/
theorem at8_agg (c : Dev nD) :
    W8 m ρ c (Proc.devRef .tc main_v61) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [late_agg m ρ c, at7_product m ρ c]
  exact (stage65_eq _ _ _ _ _).symm

/-- THE RESULT: after the last region the result array is the reference's last stage of the six arguments. -/
theorem result_eq (c : Dev nD) :
    W9 m ρ c (Proc.devRef .tc main_v63)
      = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Cert.KernelIdeal.SecondBias.final (V8 m ρ) c).trans ?_
  have ha : V8 m ρ c main_v61 = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := at8_agg m ρ c
  have hb : V8 m ρ c main_v62 = shapeCast S1x128 (m ((c : Thread nD τ).loc main_arg5)) shapeCasts_S128_S1x128 := late_bias m ρ c
  rw [ha, hb]
  exact (Cert.ReferenceIdeal.Stages.bias_plain _ (m ((c : Thread nD τ).loc main_arg5)) _ (fun q => shapeCast_a_1a_apply _ _ (0 : Fin 1) q)).symm

end AtIdeal

end Cert.KernelIdeal.Composed

end
-- ==== Proof.lean ====
/-
  Two layers of graph convolution on 100000 nodes with 128 features, 800000 edges and a self loop at every node: in each
  layer the rows are multiplied by the transposed weights, every edge carries its source's row scaled by the symmetric
  normalisation to its target, where the rows are summed, and the bias is added (the first layer then clamps at zero).
  The kernel program runs the two products and the two bias steps as four regions over ten blocks of ten thousand rows
  and everything else as the reference's own host operations. On the extended reals a region's product of a row block
  with the transposed weights, its operands narrowed on the way in, is the reference's product restricted to those rows,
  and its bias step is the reference's broadcast-and-add on those rows; the blocks tile the array; so stage by stage the
  two programs hold the same arrays, and they end with the same result. No finiteness is used: the two sides are the
  same sums in the same order of operands.
-/
import proofs.«124354_j16827681865964_1_alg».proof.Defs
import proofs.«124354_j16827681865964_1_alg».proof.Proof.Gen.Kernel
import proofs.«124354_j16827681865964_1_alg».proof.Proof.Gen.Kernel.Frame
import proofs.«124354_j16827681865964_1_alg».proof.Proof.Gen.KernelIdeal
import proofs.«124354_j16827681865964_1_alg».proof.Proof.Gen.KernelIdeal.Frame
import proofs.«124354_j16827681865964_1_alg».proof.Proof.Gen.ReferenceIdeal
import proofs.«124354_j16827681865964_1_alg».proof.Proof.Gen.Pre_finite_inputs
import proofs.«124354_j16827681865964_1_alg».proof.Proof.RefRun
import proofs.«124354_j16827681865964_1_alg».proof.Proof.RefRead
import proofs.«124354_j16827681865964_1_alg».proof.Proof.KLaunch
import proofs.«124354_j16827681865964_1_alg».proof.Proof.KValue
import Idealize.ShloMosaic.Adequacy
import Idealize.ShloMosaic.Init

noncomputable section

namespace Cert.Proof

open Idealize.ShloMosaic Idealize.ShloMosaic.TcCoe Idealize.SL.Sem

namespace Claims

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs, from memories agreeing on the six arguments, end with the reference's last stage of those arguments
    in their result arrays. -/
theorem algebraic : Cert.algebraic_KernelIdeal_ReferenceIdeal := by
  intro m ρ m' ρ' _ hagree
  refine ⟨fun c => Cert.ReferenceIdeal.ReadP.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Composed.result_eq m ρ c), (h c).2⟩)
      (Cert.KernelIdeal.Launch.run_named (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v68_eq, (hagree c).1, (hagree c).2.1, (hagree c).2.2.1, (hagree c).2.2.2.1,
      (hagree c).2.2.2.2.1, (hagree c).2.2.2.2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
